-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg10 : FVec F S4096 .f32) (main_v33 : IVec S_ 1) : IVec S_ 1 :=
  let main_v34 : FVec F S4096 .f32 := Host.absf main_arg10
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg6 : FVec F S1 .f32) (main_arg8 : FVec F S1 .f32) (main_arg9 : FVec F S1 .f32) (main_arg10 : FVec F S4096 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg10 main_v33

def fn {F : FTy → Type} [FloatOps F] (main_arg0 : FVec F S4x2048x4096 .f32) (main_arg1 : IVec S4096x1024 32) (main_arg2 : FVec F S1 .f32) (main_arg3 : FVec F S1 .f32) (main_arg4 : IVec S1024 32) (main_arg5 : FVec F S1 .f32) (main_arg6 : FVec F S1 .f32) (main_arg7 : IVec S1024x4096 32) (main_arg8 : FVec F S1 .f32) (main_arg9 : FVec F S1 .f32) (main_arg10 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg8 main_arg9 main_arg10 main_v13 main_v16
-- ==== Kernel.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S1x1 : Shape := ⟨2, ![1, 1]⟩
abbrev S1x1024 : Shape := ⟨2, ![1, 1024]⟩
abbrev S1x4096 : Shape := ⟨2, ![1, 4096]⟩
abbrev S8192x4096 : Shape := ⟨2, ![8192, 4096]⟩
abbrev S256x4096 : Shape := ⟨2, ![256, 4096]⟩
abbrev S256x1024 : Shape := ⟨2, ![256, 1024]⟩

abbrev nBuf : Space → Nat
  | .hbm => 40
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .i32⟩
  | .hbm, ⟨2, _⟩ => ⟨S1, .f32⟩
  | .hbm, ⟨3, _⟩ => ⟨S1, .f32⟩
  | .hbm, ⟨4, _⟩ => ⟨S1024, .i32⟩
  | .hbm, ⟨5, _⟩ => ⟨S1, .f32⟩
  | .hbm, ⟨6, _⟩ => ⟨S1, .f32⟩
  | .hbm, ⟨7, _⟩ => ⟨S1024x4096, .i32⟩
  | .hbm, ⟨8, _⟩ => ⟨S1, .f32⟩
  | .hbm, ⟨9, _⟩ => ⟨S1, .f32⟩
  | .hbm, ⟨10, _⟩ => ⟨S4096, .f32⟩
  | .hbm, ⟨11, _⟩ => ⟨S4096x1024, .f32⟩
  | .hbm, ⟨12, _⟩ => ⟨S1x1, .f32⟩
  | .hbm, ⟨13, _⟩ => ⟨S4096x1024, .f32⟩
  | .hbm, ⟨14, _⟩ => ⟨S4096x1024, .f32⟩
  | .hbm, ⟨15, _⟩ => ⟨S1x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024x4096, .f32⟩
  | .hbm, ⟨24, _⟩ => ⟨S1x1, .f32⟩
  | .hbm, ⟨25, _⟩ => ⟨S1024x4096, .f32⟩
  | .hbm, ⟨26, _⟩ => ⟨S1024x4096, .f32⟩
  | .hbm, ⟨27, _⟩ => ⟨S1x1, .f32⟩
  | .hbm, ⟨28, _⟩ => ⟨S1024x4096, .f32⟩
  | .hbm, ⟨29, _⟩ => ⟨S1024x4096, .f32⟩
  | .hbm, ⟨30, _⟩ => ⟨S4096x1024, .f32⟩
  | .hbm, ⟨31, _⟩ => ⟨S4096x1024, .bf16⟩
  | .hbm, ⟨32, _⟩ => ⟨S1024x4096, .f32⟩
  | .hbm, ⟨33, _⟩ => ⟨S1024x4096, .bf16⟩
  | .hbm, ⟨34, _⟩ => ⟨S1x1024, .f32⟩
  | .hbm, ⟨35, _⟩ => ⟨S1x4096, .f32⟩
  | .hbm, ⟨36, _⟩ => ⟨S8192x4096, .f32⟩
  | .hbm, ⟨37, _⟩ => ⟨S8192x4096, .bf16⟩
  | .hbm, ⟨38, _⟩ => ⟨S8192x4096, .f32⟩
  | .hbm, ⟨39, _⟩ => ⟨S4x2048x4096, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S1024_0 : S1.BroadcastsInDim S1024 (![0] : Fin 1 → Fin S1024.rank)
  bcast_S1x1_S1024x4096_0_1 : S1x1.BroadcastsInDim S1024x4096 (![0, 1] : Fin 2 → Fin S1024x4096.rank)
  transposes_S1024x4096_S4096x1024_1_0 : S1024x4096.Transposes [1, 0] S4096x1024
  bitsLt_bf16_f32 : FTy.bits .bf16 < FTy.bits .f32
  transposes_S4096x1024_S1024x4096_1_0 : S4096x1024.Transposes [1, 0] S1024x4096
  shapeCasts_S1024_S1x1024 : S1024.ShapeCasts S1x1024
  shapeCasts_S4096_S1x4096 : S4096.ShapeCasts S1x4096
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v26) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1 : Shape := ⟨1, ![1]⟩
abbrev S1024 : Shape := ⟨1, ![1024]⟩
abbrev S1024x4096 : Shape := ⟨2, ![1024, 4096]⟩
abbrev S4096 : Shape := ⟨1, ![4096]⟩
abbrev S1x1 : Shape := ⟨2, ![1, 1]⟩
abbrev S8192x4096 : Shape := ⟨2, ![8192, 4096]⟩
abbrev S8192x1024 : Shape := ⟨2, ![8192, 1024]⟩
abbrev S1x1024 : Shape := ⟨2, ![1, 1024]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .i32⟩
  | .hbm, ⟨2, _⟩ => ⟨S1, .f32⟩
  | .hbm, ⟨3, _⟩ => ⟨S1, .f32⟩
  | .hbm, ⟨4, _⟩ => ⟨S1024, .i32⟩
  | .hbm, ⟨5, _⟩ => ⟨S1, .f32⟩
  | .hbm, ⟨6, _⟩ => ⟨S1, .f32⟩
  | .hbm, ⟨7, _⟩ => ⟨S1024x4096, .i32⟩
  | .hbm, ⟨8, _⟩ => ⟨S1, .f32⟩
  | .hbm, ⟨9, _⟩ => ⟨S1, .f32⟩
  | .hbm, ⟨10, _⟩ => ⟨S4096, .f32⟩
  | .hbm, ⟨11, _⟩ => ⟨S4096x1024, .f32⟩
  | .hbm, ⟨12, _⟩ => ⟨S1x1, .f32⟩
  | .hbm, ⟨13, _⟩ => ⟨S4096x1024, .f32⟩
  | .hbm, ⟨14, _⟩ => ⟨S4096x1024, .f32⟩
  | .hbm, ⟨15, _⟩ => ⟨S1x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024x4096, .f32⟩
  | .hbm, ⟨24, _⟩ => ⟨S1x1, .f32⟩
  | .hbm, ⟨25, _⟩ => ⟨S1024x4096, .f32⟩
  | .hbm, ⟨26, _⟩ => ⟨S1024x4096, .f32⟩
  | .hbm, ⟨27, _⟩ => ⟨S1x1, .f32⟩
  | .hbm, ⟨28, _⟩ => ⟨S1024x4096, .f32⟩
  | .hbm, ⟨29, _⟩ => ⟨S1024x4096, .f32⟩
  | .hbm, ⟨30, _⟩ => ⟨S8192x4096, .f32⟩
  | .hbm, ⟨31, _⟩ => ⟨S4096x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S1024_0 : S1.BroadcastsInDim S1024 (![0] : Fin 1 → Fin S1024.rank)
  bcast_S1x1_S1024x4096_0_1 : S1x1.BroadcastsInDim S1024x4096 (![0, 1] : Fin 2 → Fin S1024x4096.rank)
  shapeCasts_S4x2048x4096_S8192x4096 : S4x2048x4096.ShapeCasts S8192x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Spec.lean ====
/-
  The map both programs compute, as one function of five arrays.  With `X` an 8192 × 4096 matrix of activations,
  `A` a 4096 × 1024 matrix, `s` a vector of 1024 scales, `B` a 1024 × 4096 matrix and `b` a vector of 4096 biases,

      lowRank X A s B b (n, o) = (∑ r, ((∑ k, X (n, k) · A (k, r)) · s r) · B (r, o)) + b o

  on the extended reals: a product with `A`, each column scaled, a product with `B`, a bias added to every row.
  No law of the extended reals beyond the definitions is used below: both programs form exactly these sums of
  exactly these products, so nothing is distributed, cancelled or moved across a sum, and no entry needs to be finite.

  Three readings of it are proved here, none naming a program:
  * the scale and the bias may come as one-row matrices, reshaped from the vectors (`lowRankRows_reshape`);
  * the host's two `dot_general`s with the broadcast scale and bias in between (`host_eq`);
  * a block of 256 rows of it is the same expression of the 256 rows of `X` (`lowRank` reads only row `n` of `X`:
    this is `rfl` where it is used).
-/
import Idealize.ShloMosaic.PureOps.Ideal.Laws
import Idealize.ShloMosaic.Lib.ValueIdx
import Idealize.ShloMosaic.Lib.Pipeline.Value
import Idealize.ShloMosaic.Lib.StackMember

noncomputable section

namespace Cert.LowRank

open Idealize.ShloMosaic Idealize.ShloMosaic.ValueIdx Idealize.ShloMosaic.StackMember

/-- The entry at row `n`, column `o`. -/
def entry {N : ℕ} (X : (⟨2, ![N, 4096]⟩ : Shape).Idx → EReal) (A : (⟨2, ![4096, 1024]⟩ : Shape).Idx → EReal)
    (s : Fin 1024 → EReal) (B : (⟨2, ![1024, 4096]⟩ : Shape).Idx → EReal) (b : Fin 4096 → EReal) (n : Fin N) (o : Fin 4096) : EReal :=
  (∑ r : Fin 1024, ((∑ k : Fin 4096, X (ix2 n k) * A (ix2 k r)) * s r) * B (ix2 r o)) + b o

/-- The whole array, scale and bias as vectors. -/
def lowRank {N : ℕ} (X : (⟨2, ![N, 4096]⟩ : Shape).Idx → EReal) (A : (⟨2, ![4096, 1024]⟩ : Shape).Idx → EReal)
    (s : (⟨1, ![1024]⟩ : Shape).Idx → EReal) (B : (⟨2, ![1024, 4096]⟩ : Shape).Idx → EReal) (b : (⟨1, ![4096]⟩ : Shape).Idx → EReal) :
    (⟨2, ![N, 4096]⟩ : Shape).Idx → EReal :=
  fun i => entry X A (fun r => s (ix1 r)) B (fun o => b (ix1 o)) (i 0) (i 1)

/-- The whole array, scale and bias as one-row matrices. -/
def lowRankRows {N : ℕ} (X : (⟨2, ![N, 4096]⟩ : Shape).Idx → EReal) (A : (⟨2, ![4096, 1024]⟩ : Shape).Idx → EReal)
    (s : (⟨2, ![1, 1024]⟩ : Shape).Idx → EReal) (B : (⟨2, ![1024, 4096]⟩ : Shape).Idx → EReal) (b : (⟨2, ![1, 4096]⟩ : Shape).Idx → EReal) :
    (⟨2, ![N, 4096]⟩ : Shape).Idx → EReal :=
  fun i => entry X A (fun r => s (ix2 0 r)) B (fun o => b (ix2 0 o)) (i 0) (i 1)

/-- A vector reshaped to a one-row matrix, read at `(0, r)`, is the vector at `r`. -/
theorem reshape_row_apply {α : Type} {n : ℕ} (v : (⟨1, ![n]⟩ : Shape).Idx → α)
    (h : (⟨1, ![n]⟩ : Shape).ShapeCasts ⟨2, ![1, n]⟩) (r : Fin n) :
    shapeCast ⟨2, ![1, n]⟩ v h (ix2 0 r) = v (ix1 r) := by
  refine shapeCast_apply v h (ix2 0 r) (ix1 r) ?_
  rw [Shape.rowMajor_val_one, Shape.rowMajor_val_two]
  show r.val = 0 * n + r.val
  omega

/-- With the scale and the bias reshaped to one-row matrices the array is the same. -/
theorem lowRankRows_reshape {N : ℕ} (X : (⟨2, ![N, 4096]⟩ : Shape).Idx → EReal) (A : (⟨2, ![4096, 1024]⟩ : Shape).Idx → EReal)
    (s : (⟨1, ![1024]⟩ : Shape).Idx → EReal) (B : (⟨2, ![1024, 4096]⟩ : Shape).Idx → EReal) (b : (⟨1, ![4096]⟩ : Shape).Idx → EReal)
    (hs : (⟨1, ![1024]⟩ : Shape).ShapeCasts ⟨2, ![1, 1024]⟩) (hb : (⟨1, ![4096]⟩ : Shape).ShapeCasts ⟨2, ![1, 4096]⟩) :
    lowRankRows X A (shapeCast ⟨2, ![1, 1024]⟩ s hs) B (shapeCast ⟨2, ![1, 4096]⟩ b hb) = lowRank X A s B b := by
  funext i
  unfold lowRankRows lowRank
  simp only [reshape_row_apply]

/-- Rows of the array depend on the same rows of `X` only: if the `M` rows of `Xb` are the rows `row p` of `X`, the array
    of `Xb` at `(p, q)` is the array of `X` at `(row p, q)`. -/
theorem lowRankRows_block {N M : ℕ} (X : (⟨2, ![N, 4096]⟩ : Shape).Idx → EReal) (Xb : (⟨2, ![M, 4096]⟩ : Shape).Idx → EReal)
    (A : (⟨2, ![4096, 1024]⟩ : Shape).Idx → EReal) (s : (⟨2, ![1, 1024]⟩ : Shape).Idx → EReal)
    (B : (⟨2, ![1024, 4096]⟩ : Shape).Idx → EReal) (b : (⟨2, ![1, 4096]⟩ : Shape).Idx → EReal)
    (row : Fin M → Fin N) (hX : ∀ p k, Xb (ix2 p k) = X (ix2 (row p) k)) (p : Fin M) (q : Fin 4096) :
    lowRankRows Xb A s B b (ix2 p q) = lowRankRows X A s B b (ix2 (row p) q) := by
  show entry Xb A _ B _ p q = entry X A _ B _ (row p) q
  unfold entry
  simp only [hX]

/-- A vector broadcast to one row and then to every row of an `N`-row matrix, read at `(p, r)`, is the vector at `r`. -/
theorem bcast_rows_apply {α : Type} {N n : ℕ} (hn : n ≠ 1) (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![N, n]⟩ ![0, 1]) (p : Fin N) (r : Fin n) :
    broadcastInDim ⟨2, ![N, n]⟩ ![0, 1] h2 (broadcastInDim ⟨2, ![1, n]⟩ ![1] h1 v) (ix2 p r) = v (ix1 r) := by
  rw [broadcastInDim_apply ![0, 1] h2 _ (ix2 p r) (ix2 0 r) (fun a => match a with
      | ⟨0, _⟩ => by show 0 = if (1 : ℕ) = 1 then 0 else p.val; rw [if_pos rfl]
      | ⟨1, _⟩ => by show r.val = if n = 1 then 0 else r.val; rw [if_neg hn]),
    broadcastInDim_apply ![1] h1 v (ix2 0 r) (ix1 r) (fun a => match a with
      | ⟨0, _⟩ => by show r.val = if n = 1 then 0 else r.val; rw [if_neg hn])]

/-- The host's form: a `dot_general` with `A`, the product with the scale broadcast to every row, a `dot_general`
    with `B`, the sum with the bias broadcast to every row.  Entry by entry these are the sums `lowRank` names. -/
theorem host_eq {N : ℕ} (X : FVec Ideal ⟨2, ![N, 4096]⟩ .f32) (A : FVec Ideal ⟨2, ![4096, 1024]⟩ .f32)
    (s : FVec Ideal ⟨1, ![1024]⟩ .f32) (B : FVec Ideal ⟨2, ![1024, 4096]⟩ .f32) (b : FVec Ideal ⟨1, ![4096]⟩ .f32)
    (hs1 : (⟨1, ![1024]⟩ : Shape).BroadcastsInDim ⟨2, ![1, 1024]⟩ ![1])
    (hs2 : (⟨2, ![1, 1024]⟩ : Shape).BroadcastsInDim ⟨2, ![N, 1024]⟩ ![0, 1])
    (hb1 : (⟨1, ![4096]⟩ : Shape).BroadcastsInDim ⟨2, ![1, 4096]⟩ ![1])
    (hb2 : (⟨2, ![1, 4096]⟩ : Shape).BroadcastsInDim ⟨2, ![N, 4096]⟩ ![0, 1]) :
    addf (Host.dotGeneral (DotDims.plain N 1024 4096) none
        (mulf (Host.dotGeneral (DotDims.plain N 4096 1024) none X A)
          (broadcastInDim ⟨2, ![N, 1024]⟩ ![0, 1] hs2 (broadcastInDim ⟨2, ![1, 1024]⟩ ![1] hs1 s))) B)
      (broadcastInDim ⟨2, ![N, 4096]⟩ ![0, 1] hb2 (broadcastInDim ⟨2, ![1, 4096]⟩ ![1] hb1 b))
    = lowRank X A s B b := by
  funext i
  obtain ⟨n, o, rfl⟩ : ∃ (n : Fin N) (o : Fin 4096), i = ix2 n o := ⟨i 0, i 1, eq_ix2 i⟩
  show _ = entry X A (fun r => s (ix1 r)) B (fun o => b (ix1 o)) n o
  unfold entry
  rw [addf_apply, dotGeneral_plain_apply, bcast_rows_apply (by decide)]
  refine congrArg (· + b (ix1 o)) (Finset.sum_congr rfl fun r _ => ?_)
  rw [mulf_apply, dotGeneral_plain_apply, bcast_rows_apply (by decide)]

end Cert.LowRank

end
-- ==== Proof.KernelPayload.lean ====
/-
  What the kernel body stores, entry by entry.  On one block of 256 rows `x0` of the activations, with the whole
  4096 × 1024 matrix `x1`, the one-row scale `x2`, the whole 1024 × 4096 matrix `x3` and the one-row bias `x4`, the body
  forms `x0 · x1` on the matrix unit into zeros, multiplies every row by the scale row, narrows the format (the identity on
  the extended reals), forms the product with `x3` into zeros and adds the bias row to every row.  At row `p`, column
  `q` that is `(∑ r, ((∑ k, x0 (p, k) · x1 (k, r)) · x2 (0, r)) · x3 (r, q)) + x4 (0, q)`: the block's rows of `lowRankRows`.
-/
import proofs.«108487_j31550829757013_1_alg».proof.Proof.Gen.KernelIdeal.Skeleton
import proofs.«108487_j31550829757013_1_alg».proof.Proof.LibPlainMatmul
import proofs.«108487_j31550829757013_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- A one-row matrix broadcast to `N` rows, read at `(p, r)`, is the row at `r`. -/
theorem bcast_row_apply {α : Type} {N n : ℕ} (hn : n ≠ 1) (v : (⟨2, ![1, n]⟩ : Shape).Idx → α)
    (h : (⟨2, ![1, n]⟩ : Shape).Broadcasts ⟨2, ![N, n]⟩) (p : Fin N) (r : Fin n) :
    broadcastTo ⟨2, ![N, n]⟩ v h (ix2 p r) = v (ix2 0 r) :=
  broadcastTo_apply v h (ix2 p r) (ix2 0 r) (fun a => match a with
    | ⟨0, _⟩ => by show 0 = if (1 : ℕ) = 1 then 0 else p.val; rw [if_pos rfl]
    | ⟨1, _⟩ => by show r.val = if n = 1 then 0 else r.val; rw [if_neg hn])

/-- The first product, 256 × 4096 by 4096 × 1024 into zeros, at an entry. -/
theorem first_product_apply (a : FVec Ideal S256x4096 .bf16) (b : FVec Ideal S4096x1024 .bf16) (p : Fin 256) (r : Fin 1024) :
    matmul dot_S256x4096_S4096x1024_S256x1024_1_0_0_1_n_n none a b (constant S256x1024 .f32 0x00000000#32) (ix2 p r)
      = ∑ k : Fin 4096, a (ix2 p k) * b (ix2 k r) :=
  Cert.PlainMatmul.matmul_plain_zero_apply a b none p r

/-- The second product, 256 × 1024 by 1024 × 4096 into zeros, at an entry. -/
theorem second_product_apply (a : FVec Ideal S256x1024 .bf16) (b : FVec Ideal S1024x4096 .bf16) (p : Fin 256) (q : Fin 4096) :
    matmul dot_S256x1024_S1024x4096_S256x4096_1_0_0_1_n_n none a b (constant S256x4096 .f32 0x00000000#32) (ix2 p q)
      = ∑ r : Fin 1024, a (ix2 p r) * b (ix2 r q) :=
  Cert.PlainMatmul.matmul_plain_zero_apply a b none p q

/-- The stored value at row `p`, column `q` of the block. -/
theorem pay_apply (x0 : Vec Ideal S256x4096 .bf16) (x1 : Vec Ideal S4096x1024 .bf16) (x2 : Vec Ideal S1x1024 .f32)
    (x3 : Vec Ideal S1024x4096 .bf16) (x4 : Vec Ideal S1x4096 .f32) (p : Fin 256) (q : Fin 4096) :
    k0_pay1 (F := Ideal) x0 x1 x2 x3 x4 (ix2 p q)
      = Cert.LowRank.entry x0 x1 (fun r => x2 (ix2 0 r)) x3 (fun o => x4 (ix2 0 o)) p q := by
  unfold k0_pay1 Cert.LowRank.entry
  simp only [shapeCast_self]
  rw [addf_apply, second_product_apply, bcast_row_apply (by decide)]
  refine congrArg (· + x4 (ix2 0 q)) (Finset.sum_congr rfl fun r _ => ?_)
  rw [truncf_apply, mulf_apply, first_product_apply, bcast_row_apply (by decide)]

/-- So the stored block is `lowRankRows` of the block's rows. -/
theorem pay_eq (x0 : Vec Ideal S256x4096 .bf16) (x1 : Vec Ideal S4096x1024 .bf16) (x2 : Vec Ideal S1x1024 .f32)
    (x3 : Vec Ideal S1024x4096 .bf16) (x4 : Vec Ideal S1x4096 .f32) :
    k0_pay1 (F := Ideal) x0 x1 x2 x3 x4 = Cert.LowRank.lowRankRows x0 x1 x2 x3 x4 := by
  funext i
  obtain ⟨p, q, rfl⟩ : ∃ (p : Fin 256) (q : Fin 4096), i = ix2 p q := ⟨i 0, i 1, eq_ix2 i⟩
  exact pay_apply x0 x1 x2 x3 x4 p q

end Cert.KernelIdeal.Payload

end
-- ==== Proof.KernelValue.lean ====
/-
  The kernel's result array after the run, as one function of the arrays the region finds.

  The grid has 32 points.  At point `t` the first window's block is rows `256 t … 256 t + 255` of the activations (all
  4096 columns); the four other input windows hold their whole arrays at every point; the output window's block is the
  same 256 rows of the result.  The body stores `lowRankRows` of its blocks, and `lowRankRows` at row `n` reads only row
  `n` of the activations, so what point `t` writes back is rows `256 t …` of `lowRankRows` of the whole arrays.  The 32
  blocks tile the 8192 rows, so the array ends holding `lowRankRows` of the whole arrays.
-/
import proofs.«108487_j31550829757013_1_alg».proof.Proof.Gen.KernelIdeal.Frame
import proofs.«108487_j31550829757013_1_alg».proof.Proof.KernelPayload
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arrays the region finds, at their literal types -/

/-- The activations, 8192 × 4096. -/
abbrev xArr (c : Dev nD) : Vec Ideal S8192x4096 .bf16 := V m c main_v26
/-- The first factor, 4096 × 1024. -/
abbrev aArr (c : Dev nD) : Vec Ideal S4096x1024 .bf16 := V m c main_v20
/-- The scale, one row of 1024. -/
abbrev sRow (c : Dev nD) : Vec Ideal S1x1024 .f32 := V m c main_v23
/-- The second factor, 1024 × 4096. -/
abbrev bArr (c : Dev nD) : Vec Ideal S1024x4096 .bf16 := V m c main_v22
/-- The bias, one row of 4096. -/
abbrev biasRow (c : Dev nD) : Vec Ideal S1x4096 .f32 := V m c main_v24

/-! ## The index maps over the grid -/

/-- The first input window and the output window move down one block of rows per point; the others stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := lt_of_lt_of_eq t.isLt N_0

/-- Row `p` of point `t`'s block is row `256 t + p` of the array. -/
def rowOf (t : Fin cfg0.N) (p : Fin 256) : Fin 8192 :=
  ⟨t.val * 256 + p.val, by have := point_lt t; have := p.isLt; omega⟩

/-! ## The input blocks, read off the arrays -/

/-- The activations' block at point `t`, at `(p, k)`, is the array at `(256 t + p, k)`. -/
theorem xblk_apply (c : Dev nD) (t : Fin cfg0.N) (p : Fin 256) (k : Fin 4096) :
    iblk m c 0 t (ix2 p k) = xArr m c (ix2 (rowOf t p) k) := by
  show V m c main_v26 (((cfg0.win 0).blk t).view.emb (ix2 p k)) = V m c main_v26 (ix2 (rowOf t p) k)
  refine congrArg _ (funext fun a => Fin.ext ?_)
  obtain ⟨e0, e1, -⟩ := idx_facts t
  match a with
  | ⟨0, _⟩ => show win0_0.index t (0 : Fin 2) * 256 + 1 * p.val = t.val * 256 + p.val; omega
  | ⟨1, _⟩ => show win0_0.index t (1 : Fin 2) * 4096 + 1 * k.val = k.val; omega

/-- The first factor's block is its whole array at every point. -/
theorem ablk_eq (c : Dev nD) (t : Fin cfg0.N) : iblk m c 1 t = aArr m c := by
  funext y
  show V m c main_v20 (((cfg0.win 1).blk t).view.emb y) = V m c main_v20 y
  refine congrArg _ (funext fun a => Fin.ext ?_)
  obtain ⟨-, -, e0, e1, -⟩ := idx_facts t
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The scale's block is its whole row at every point. -/
theorem sblk_eq (c : Dev nD) (t : Fin cfg0.N) : iblk m c 2 t = sRow m c := by
  funext y
  show V m c main_v23 (((cfg0.win 2).blk t).view.emb y) = V m c main_v23 y
  refine congrArg _ (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The second factor's block is its whole array at every point. -/
theorem bblk_eq (c : Dev nD) (t : Fin cfg0.N) : iblk m c 3 t = bArr m c := by
  funext y
  show V m c main_v22 (((cfg0.win 3).blk t).view.emb y) = V m c main_v22 y
  refine congrArg _ (funext fun a => Fin.ext ?_)
  obtain ⟨-, -, -, -, -, -, e0, e1, -⟩ := idx_facts t
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- The bias's block is its whole row at every point. -/
theorem biasblk_eq (c : Dev nD) (t : Fin cfg0.N) : iblk m c 4 t = biasRow m c := by
  funext y
  show V m c main_v24 (((cfg0.win 4).blk t).view.emb y) = V m c main_v24 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-! ## What a point writes back -/

theorem zero_offsets : (![0, 0] : Fin 2 → Nat) = fun _ => 0 := funext fun a => by fin_cases a <;> rfl

/-- An entry of the output block at point `t` sits at row `256 t + (its row)`, the same column, of the result array. -/
theorem out_emb (t : Fin cfg0.N) (j : ((cfg0.win 5).xblock (cfg0.grid.coords t)).Idx) :
    ((cfg0.win 5).blk t).view.emb j = ix2 (rowOf t (j 0)) (j 1) := by
  funext a; apply Fin.ext
  obtain ⟨-, -, -, -, -, -, -, -, -, -, e0, e1⟩ := idx_facts t
  match a with
  | ⟨0, _⟩ => show win0_5.index t (0 : Fin 2) * 256 + 1 * (j 0).val = t.val * 256 + (j 0).val; omega
  | ⟨1, _⟩ => show win0_5.index t (1 : Fin 2) * 4096 + 1 * (j 1).val = (j 1).val; omega

/-- What point `t` writes back is block `t` of `lowRankRows` of the whole arrays. -/
theorem flushed5_eq (c : Dev nD) (t : Fin cfg0.N) :
    (dats m 0 c).flushed 5 t = ((cfg0.win 5).blk t).view.read (Elt Ideal)
      (Cert.LowRank.lowRankRows (xArr m c) (aArr m c) (sRow m c) (bArr m c) (biasRow m c)) := by
  show (cfg0.win 5).cut (grid0.coords t) ((dats m 0 c).after 5 t) = _
  rw [after0_5]
  unfold out0_5
  rw [View.canon_unit_zero zero_offsets]
  simp only [View.ld_unit_zero (S := S256x4096) zero_offsets, View.ld_unit_zero (S := S4096x1024) zero_offsets,
    View.ld_unit_zero (S := S1x1024) zero_offsets, View.ld_unit_zero (S := S1024x4096) zero_offsets,
    View.ld_unit_zero (S := S1x4096) zero_offsets]
  rw [Payload.pay_eq, ablk_eq, sblk_eq, bblk_eq, biasblk_eq]
  funext j
  show Cert.LowRank.lowRankRows (iblk m c 0 t) (aArr m c) (sRow m c) (bArr m c) (biasRow m c) j
    = Cert.LowRank.lowRankRows (xArr m c) (aArr m c) (sRow m c) (bArr m c) (biasRow m c) (((cfg0.win 5).blk t).view.emb j)
  rw [out_emb]
  exact (congrArg _ (eq_ix2 j)).trans
    (Cert.LowRank.lowRankRows_block (xArr m c) (iblk m c 0 t) (aArr m c) (sRow m c) (bArr m c) (biasRow m c) (rowOf t)
      (xblk_apply m c t) (j 0) (j 1))

/-! ## The blocks tile the array -/

/-- An index of the result array is in point `t`'s block iff each coordinate is in the block's range on its axis. -/
theorem mem_blk5 (t : Fin cfg0.N) (i : S8192x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v27).slice (win0_5.rect t)).set ↔ _
  rw [View.set_slice_whole, Rect.mem_set_unit]
  exact Iff.rfl

/-- Row `n` lies in the block of point `n / 256`. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have ht : (i 0).val / 256 < cfg0.N := lt_of_lt_of_eq (by omega : (i 0).val / 256 < 32) N_0.symm
  obtain ⟨-, -, -, -, -, -, -, -, -, -, e0, e1⟩ := idx_facts ⟨(i 0).val / 256, ht⟩
  refine ⟨⟨(i 0).val / 256, ht⟩, flush0_5 _, ?_⟩
  rw [mem_blk5]
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 4096 ≤ (i 1).val
      ∧ (i 1).val < win0_5.index ⟨(i 0).val / 256, ht⟩ (1 : Fin 2) * 4096 + 4096
    rw [e1]; omega

/-- The result array after the run: `lowRankRows` of the arrays the region finds. -/
theorem final5 (c : Dev nD) : (dats m 0 c).arrAt 5 cfg0.N
    = Cert.LowRank.lowRankRows (xArr m c) (aArr m c) (sRow m c) (bArr m c) (biasRow m c) :=
  (dats m 0 c).arrAt_eq_of_cover 5 _ (fun t _ => flushed5_eq m c t) cover5

end Cert.KernelIdeal.RegionValue

end
-- ==== Proof.KernelHost.lean ====
/-
  What the host lines before the kernel leave in the five arrays the kernel reads, as terms of the arguments.

  Each quantized table `q` (integers) with its zero point `z` and scale `σ` (one-element arrays) is dequantized entry
  by entry as `(float q − z) · σ`.  The activations are only reshaped, 4 × 2048 × 4096 to 8192 × 4096; the two tables
  are dequantized and transposed; the diagonal is dequantized and reshaped to one row; the bias is reshaped to one row.
  The changes of float format in between are the identity on the extended reals.
-/
import proofs.«108487_j31550829757013_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe
open Idealize.SL.Sem

variable (m : (ℓ : Loc nD τ sig) → Buf (Elt Ideal) ℓ)

/-- The activations, reshaped to 8192 rows. -/
abbrev xIn (c : Dev nD) : FVec Ideal S8192x4096 .f32 :=
  shapeCast S8192x4096 (m ((c : Thread nD τ).loc main_arg0)) shapeCasts_S4x2048x4096_S8192x4096

/-- The first factor: the 1024 × 4096 table dequantized, then transposed. -/
abbrev aIn (c : Dev nD) : FVec Ideal S4096x1024 .f32 :=
  transpose S4096x1024 [1, 0]
    (mulf (subf (sitofp .f32 (m ((c : Thread nD τ).loc main_arg7)))
        (broadcastInDim S1024x4096 ![0, 1] bcast_S1x1_S1024x4096_0_1 (broadcastInDim S1x1 ![1] bcast_S1_S1x1_1 (m ((c : Thread nD τ).loc main_arg9)))))
      (broadcastInDim S1024x4096 ![0, 1] bcast_S1x1_S1024x4096_0_1 (broadcastInDim S1x1 ![1] bcast_S1_S1x1_1 (m ((c : Thread nD τ).loc main_arg8)))))
    transposes_S1024x4096_S4096x1024_1_0

/-- The scale: the 1024 diagonal entries dequantized. -/
abbrev sIn (c : Dev nD) : FVec Ideal S1024 .f32 :=
  mulf (subf (sitofp .f32 (m ((c : Thread nD τ).loc main_arg4)))
      (broadcastInDim S1024 ![0] bcast_S1_S1024_0 (m ((c : Thread nD τ).loc main_arg6))))
    (broadcastInDim S1024 ![0] bcast_S1_S1024_0 (m ((c : Thread nD τ).loc main_arg5)))

/-- The second factor: the 4096 × 1024 table dequantized, then transposed. -/
abbrev bIn (c : Dev nD) : FVec Ideal S1024x4096 .f32 :=
  transpose S1024x4096 [1, 0]
    (mulf (subf (sitofp .f32 (m ((c : Thread nD τ).loc main_arg1)))
        (broadcastInDim S4096x1024 ![0, 1] bcast_S1x1_S4096x1024_0_1 (broadcastInDim S1x1 ![1] bcast_S1_S1x1_1 (m ((c : Thread nD τ).loc main_arg3)))))
      (broadcastInDim S4096x1024 ![0, 1] bcast_S1x1_S4096x1024_0_1 (broadcastInDim S1x1 ![1] bcast_S1_S1x1_1 (m ((c : Thread nD τ).loc main_arg2)))))
    transposes_S4096x1024_S1024x4096_1_0

/-- The bias. -/
abbrev biasIn (c : Dev nD) : FVec Ideal S4096 .f32 := m ((c : Thread nD τ).loc main_arg10)

set_option maxHeartbeats 2000000 in
theorem V_main_v26 (c : Dev nD) : V m c main_v26 = truncf .bf16 (xIn m c) bitsLt_bf16_f32 := by
  show StableHlo.after hostOps0 (fun b => m (c, b)) (Proc.devRef .tc main_v26) = _
  after_results_simp <;> rfl

set_option maxHeartbeats 2000000 in
theorem V_main_v20 (c : Dev nD) : V m c main_v20 = truncf .bf16 (aIn m c) bitsLt_bf16_f32 := by
  show StableHlo.after hostOps0 (fun b => m (c, b)) (Proc.devRef .tc main_v20) = _
  after_results_simp <;> rfl

set_option maxHeartbeats 2000000 in
theorem V_main_v23 (c : Dev nD) : V m c main_v23 = shapeCast S1x1024 (sIn m c) shapeCasts_S1024_S1x1024 := by
  show StableHlo.after hostOps0 (fun b => m (c, b)) (Proc.devRef .tc main_v23) = _
  after_results_simp <;> rfl

set_option maxHeartbeats 2000000 in
theorem V_main_v22 (c : Dev nD) : V m c main_v22 = truncf .bf16 (bIn m c) bitsLt_bf16_f32 := by
  show StableHlo.after hostOps0 (fun b => m (c, b)) (Proc.devRef .tc main_v22) = _
  after_results_simp <;> rfl

set_option maxHeartbeats 2000000 in
theorem V_main_v24 (c : Dev nD) : V m c main_v24 = shapeCast S1x4096 (biasIn m c) shapeCasts_S4096_S1x4096 := by
  show StableHlo.after hostOps0 (fun b => m (c, b)) (Proc.devRef .tc main_v24) = _
  after_results_simp <;> rfl

end Cert.KernelIdeal.HostSide

end
-- ==== Proof.KernelRun.lean ====
/-
  The kernel program's run, its result named by `lowRank` of the arguments.

  The region leaves `lowRankRows` of the five arrays it finds in the 8192 × 4096 result (KernelValue); those arrays are
  the reshaped activations, the two dequantized and transposed tables, and the dequantized diagonal and the bias each
  reshaped to one row (KernelHost), the changes of float format the identity; so the region's result is `lowRank` of the
  reshaped activations, the tables, the diagonal and the bias.  The one host line after the region reshapes it to
  4 × 2048 × 4096.
-/
import proofs.«108487_j31550829757013_1_alg».proof.Proof.KernelValue
import proofs.«108487_j31550829757013_1_alg».proof.Proof.KernelHost

set_option maxRecDepth 16384

noncomputable section

namespace Cert.KernelIdeal.RunValue

open Cert.KernelIdeal Cert.KernelIdeal.Gen Cert.KernelIdeal.HostSide Idealize.ShloMosaic Idealize.ShloMosaic.TcCoe
open Idealize.SL.Sem

variable (m : (ℓ : Loc nD τ sig) → Buf (Elt Ideal) ℓ) (ρ : Dev nD → PrngReg)

/-- The region's result array, as a function of the arguments. -/
theorem region_result (c : Dev nD) : (dats m 0 c).arrAt 5 cfg0.N
    = Cert.LowRank.lowRank (xIn m c) (aIn m c) (sIn m c) (bIn m c) (biasIn m c) := by
  rw [RegionValue.final5]
  show Cert.LowRank.lowRankRows (V m c main_v26) (V m c main_v20) (V m c main_v23) (V m c main_v22) (V m c main_v24) = _
  rw [V_main_v26, V_main_v20, V_main_v23, V_main_v22, V_main_v24]
  exact Cert.LowRank.lowRankRows_reshape (xIn m c) (aIn m c) (sIn m c) (bIn m c) (biasIn m c) _ _

/-- The program's result, as a function of the arguments. -/
abbrev result (c : Dev nD) : FVec Ideal S4x2048x4096 .f32 :=
  shapeCast S4x2048x4096 (Cert.LowRank.lowRank (xIn m c) (aIn m c) (sIn m c) (bIn m c) (biasIn m c))
    shapeCasts_S8192x4096_S4x2048x4096

/-- The host line after the region reshapes the region's result. -/
theorem tail_result (c : Dev nD) :
    Pipeline.afterTail₀ cfgs (dats m) 0 (V0 m) [hostOps1] c main_v28 = result m c := by
  unfold Pipeline.afterTail₀
  show StableHlo.after hostOps1 _ (Proc.devRef .tc main_v28) = _
  after_results
  exact congrArg (fun z => shapeCast S4x2048x4096 z shapeCasts_S8192x4096_S4x2048x4096)
    ((Pipeline.withArrays_arr spec0 launch0.win.arr_inj c _ _ 5).trans (region_result m c))

/-- The run: the result at `result`, the arguments unchanged. -/
theorem run : θ_run defs (onTc (τ := τ) (main (F := Ideal))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      (((h c).2 main_v28 (Pipeline.mem_restRefs_of main_v28 (by decide) (by decide))).trans (tail_result m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.RunValue

end
-- ==== Proof.RefSide.lean ====
/-
  The reference's result as `lowRank` of the same five arrays.

  The reference dequantizes the three tables as the kernel's host lines do, reshapes the activations to 8192 rows,
  takes the `dot_general` with the transposed 1024 × 4096 table, multiplies by the diagonal broadcast to every row, takes the
  `dot_general` with the transposed 4096 × 1024 table, adds the bias broadcast to every row, and reshapes back to
  4 × 2048 × 4096.  Between the two reshapes that is `lowRank` (Spec's `host_eq`).
-/
import proofs.«108487_j31550829757013_1_alg».proof.Proof.Gen.ReferenceIdeal.Run
import proofs.«108487_j31550829757013_1_alg».proof.Proof.Spec

set_option maxRecDepth 16384

noncomputable section

namespace Cert.ReferenceIdeal.RefValue

open Cert.ReferenceIdeal Cert.ReferenceIdeal.Gen Idealize.ShloMosaic Idealize.ShloMosaic.TcCoe
open Idealize.SL.Sem

variable (m : (ℓ : Loc nD τ sig) → Buf (Elt Ideal) ℓ) (ρ : Dev nD → PrngReg)

/-- The activations, reshaped to 8192 rows. -/
abbrev xIn (c : Dev nD) : FVec Ideal S8192x4096 .f32 :=
  shapeCast S8192x4096 (m ((c.tc : Thread nD τ).loc main_arg0)) shapeCasts_S4x2048x4096_S8192x4096

/-- The first factor: the 1024 × 4096 table dequantized, then transposed. -/
abbrev aIn (c : Dev nD) : FVec Ideal S4096x1024 .f32 :=
  transpose S4096x1024 [1, 0]
    (mulf (subf (sitofp .f32 (m ((c.tc : Thread nD τ).loc main_arg7)))
        (broadcastInDim S1024x4096 ![0, 1] bcast_S1x1_S1024x4096_0_1 (broadcastInDim S1x1 ![1] bcast_S1_S1x1_1 (m ((c.tc : Thread nD τ).loc main_arg9)))))
      (broadcastInDim S1024x4096 ![0, 1] bcast_S1x1_S1024x4096_0_1 (broadcastInDim S1x1 ![1] bcast_S1_S1x1_1 (m ((c.tc : Thread nD τ).loc main_arg8)))))
    transposes_S1024x4096_S4096x1024_1_0

/-- The scale: the 1024 diagonal entries dequantized. -/
abbrev sIn (c : Dev nD) : FVec Ideal S1024 .f32 :=
  mulf (subf (sitofp .f32 (m ((c.tc : Thread nD τ).loc main_arg4)))
      (broadcastInDim S1024 ![0] bcast_S1_S1024_0 (m ((c.tc : Thread nD τ).loc main_arg6))))
    (broadcastInDim S1024 ![0] bcast_S1_S1024_0 (m ((c.tc : Thread nD τ).loc main_arg5)))

/-- The second factor: the 4096 × 1024 table dequantized, then transposed. -/
abbrev bIn (c : Dev nD) : FVec Ideal S1024x4096 .f32 :=
  transpose S1024x4096 [1, 0]
    (mulf (subf (sitofp .f32 (m ((c.tc : Thread nD τ).loc main_arg1)))
        (broadcastInDim S4096x1024 ![0, 1] bcast_S1x1_S4096x1024_0_1 (broadcastInDim S1x1 ![1] bcast_S1_S1x1_1 (m ((c.tc : Thread nD τ).loc main_arg3)))))
      (broadcastInDim S4096x1024 ![0, 1] bcast_S1x1_S4096x1024_0_1 (broadcastInDim S1x1 ![1] bcast_S1_S1x1_1 (m ((c.tc : Thread nD τ).loc main_arg2)))))
    transposes_S4096x1024_S1024x4096_1_0

/-- The bias. -/
abbrev biasIn (c : Dev nD) : FVec Ideal S4096 .f32 := m ((c.tc : Thread nD τ).loc main_arg10)

/-- The result, as a function of the arguments. -/
abbrev result (c : Dev nD) : FVec Ideal S4x2048x4096 .f32 :=
  shapeCast S4x2048x4096 (Cert.LowRank.lowRank (xIn m c) (aIn m c) (sIn m c) (bIn m c) (biasIn m c))
    shapeCasts_S8192x4096_S4x2048x4096

/-- The reference's run, its result named by `lowRank`. -/
theorem run : θ_run defs (onTc (τ := τ) (main (F := Ideal))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans
      (congrArg (fun z => shapeCast S4x2048x4096 z shapeCasts_S8192x4096_S4x2048x4096)
        (Cert.LowRank.host_eq (xIn m c) (aIn m c) (sIn m c) (bIn m c) (biasIn m c)
          bcast_S1024_S1x1024_1 bcast_S1x1024_S8192x1024_0_1 bcast_S4096_S1x4096_1 bcast_S1x4096_S8192x4096_0_1)),
      (h c).2⟩)
    (Cert.ReferenceIdeal.Value.run (F := Ideal) m ρ)

end Cert.ReferenceIdeal.RefValue

end
-- ==== Proof.lean ====
/- A low-rank linear layer with quantized factors: `y = ((x · Vhᵀ) ⊙ s) · Uᵀ + bias`, with `Vh` (1024 × 4096), the diagonal `s`
   (1024) and `U` (4096 × 1024) each stored as integers and dequantized entry by entry as `(float q − zero_point) · scale`,
   the activations `x` 4 × 2048 × 4096 read as 8192 rows.

   The kernel runs one grid of 32 points, 256 rows each: on the matrix unit the rows times the transposed `Vh`, every
   row scaled by `s`, the product with the transposed `U`, the bias added; the host lines around it dequantize, transpose
   and reshape.  The reference does the same with two `dot_general`s over all 8192 rows.  On the extended reals both
   results are, between the same two reshapes, the array `Cert.LowRank.lowRank` (Proof/Spec.lean) of the same five arrays:
   the sums are formed of the same products in both programs, so no law beyond the definitions is needed and the
   precondition (finite inputs) is never opened.

   Proof/KernelPayload.lean reads the body's stored value at an entry; Proof/KernelValue.lean the region's result array
   (block reads, what a point writes back, the 32 blocks tiling the rows); Proof/KernelHost.lean the host lines before
   the region; Proof/KernelRun.lean the run of the whole kernel program; Proof/RefSide.lean the reference's run.
   The three frames are the generated ones; the idealization rewrote nothing, so `preserves` is `True`. -/
import proofs.«108487_j31550829757013_1_alg».proof.Defs
import proofs.«108487_j31550829757013_1_alg».proof.Proof.KernelRun
import proofs.«108487_j31550829757013_1_alg».proof.Proof.RefSide
import proofs.«108487_j31550829757013_1_alg».proof.Proof.Gen.Kernel
import proofs.«108487_j31550829757013_1_alg».proof.Proof.Gen.Kernel.Skeleton
import proofs.«108487_j31550829757013_1_alg».proof.Proof.Gen.Kernel.Launch
import proofs.«108487_j31550829757013_1_alg».proof.Proof.Gen.Kernel.Points
import proofs.«108487_j31550829757013_1_alg».proof.Proof.Gen.Kernel.Frame
import proofs.«108487_j31550829757013_1_alg».proof.Proof.Gen.KernelIdeal
import proofs.«108487_j31550829757013_1_alg».proof.Proof.Gen.KernelIdeal.Skeleton
import proofs.«108487_j31550829757013_1_alg».proof.Proof.Gen.KernelIdeal.Launch
import proofs.«108487_j31550829757013_1_alg».proof.Proof.Gen.KernelIdeal.Points
import proofs.«108487_j31550829757013_1_alg».proof.Proof.Gen.KernelIdeal.Frame
import proofs.«108487_j31550829757013_1_alg».proof.Proof.Gen.ReferenceIdeal
import proofs.«108487_j31550829757013_1_alg».proof.Proof.Gen.ReferenceIdeal.Run
import proofs.«108487_j31550829757013_1_alg».proof.Proof.Gen.Pre_finite_inputs
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `lowRank` of the same five arrays, reshaped. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10⟩ := hagree c
  simp only [Cert.ReferenceIdeal.RefValue.result, Cert.ReferenceIdeal.RefValue.xIn, Cert.ReferenceIdeal.RefValue.aIn,
    Cert.ReferenceIdeal.RefValue.sIn, Cert.ReferenceIdeal.RefValue.bIn, Cert.ReferenceIdeal.RefValue.biasIn]
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
